-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x127 : Shape := ⟨2, ![128, 127]⟩
abbrev S127 : Shape := ⟨1, ![127]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x127 : S_.BroadcastsInDim S128x127 (![] : Fin 0 → Fin S128x127.rank)
  reducesTo_S128x127_S_d0_1 : S128x127.ReducesTo [0, 1] S_
  bcast_S_S127 : S_.BroadcastsInDim S127 (![] : Fin 0 → Fin S127.rank)
  reducesTo_S127_S_d0 : S127.ReducesTo [0] S_

variable [Facts]

def fn_part1 {F : FTy → Type} [FloatOps F] (main_v13 : IVec S_ 1) (main_v16 : IVec S127 1) : IVec S_ 1 :=
  let main_c_5 : IVec S_ 1 := constantI S_ 1 1#1
  let main_v17 : IVec S_ 1 := (fun x v => Host.reduce IntOp.andi x v reducesTo_S127_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x127 .f32) (main_arg3 : FVec F S127 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x127 .f32 := Host.absf main_arg2
  let main_cst_2 : FVec F S_ .f32 := constant S_ .f32 0x7F800000#32
  let main_v10 : FVec F S128x127 .f32 := broadcastInDim S128x127 ![] bcast_S_S128x127 main_cst_2
  let main_v11 : IVec S128x127 1 := cmpf .olt main_v9 main_v10
  let main_c_3 : IVec S_ 1 := constantI S_ 1 1#1
  let main_v12 : IVec S_ 1 := (fun x v => Host.reduce IntOp.andi x v reducesTo_S128x127_S_d0_1 h_S_) main_v11 main_c_3
  let main_v13 : IVec S_ 1 := andi main_v8 main_v12
  let main_v14 : FVec F S127 .f32 := Host.absf main_arg3
  let main_cst_4 : FVec F S_ .f32 := constant S_ .f32 0x7F800000#32
  let main_v15 : FVec F S127 .f32 := broadcastInDim S127 ![] bcast_S_S127 main_cst_4
  let main_v16 : IVec S127 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x127 : Shape := ⟨2, ![128, 127]⟩
abbrev S127 : Shape := ⟨1, ![127]⟩
abbrev S_ : Shape := ⟨0, ![]⟩
abbrev S128x128 : Shape := ⟨2, ![128, 128]⟩
abbrev S128 : Shape := ⟨1, ![128]⟩
abbrev S1x128 : Shape := ⟨2, ![1, 128]⟩
abbrev S10000x127 : Shape := ⟨2, ![10000, 127]⟩
abbrev S200x10000 : Shape := ⟨2, ![200, 10000]⟩
abbrev S200x127 : Shape := ⟨2, ![200, 127]⟩
abbrev S200x128 : Shape := ⟨2, ![200, 128]⟩

abbrev nBuf : Space → Nat
  | .hbm => 13
  | .vmem => 8
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x127, .f32⟩
  | .hbm, ⟨3, _⟩ => ⟨S127, .f32⟩
  | .hbm, ⟨4, _⟩ => ⟨S_, .i32⟩
  | .hbm, ⟨5, _⟩ => ⟨S_, .f32⟩
  | .hbm, ⟨6, _⟩ => ⟨S128x128, .f32⟩
  | .hbm, ⟨7, _⟩ => ⟨S128x128, .bf16⟩
  | .hbm, ⟨8, _⟩ => ⟨S_, .i32⟩
  | .hbm, ⟨9, _⟩ => ⟨S_, .f32⟩
  | .hbm, ⟨10, _⟩ => ⟨S128, .f32⟩
  | .hbm, ⟨11, _⟩ => ⟨S1x128, .f32⟩
  | .hbm, ⟨12, _⟩ => ⟨S10000x127, .f32⟩
  | .local _ .vmem, ⟨0, _⟩ => ⟨S200x10000, .f32⟩
  | .local _ .vmem, ⟨1, _⟩ => ⟨S200x10000, .f32⟩
  | .local _ .vmem, ⟨2, _⟩ => ⟨S10000x128, .f32⟩
  | .local _ .vmem, ⟨3, _⟩ => ⟨S128x128, .bf16⟩
  | .local _ .vmem, ⟨4, _⟩ => ⟨S1x128, .f32⟩
  | .local _ .vmem, ⟨5, _⟩ => ⟨S200x127, .f32⟩
  | .local _ .vmem, ⟨6, _⟩ => ⟨S200x127, .f32⟩
  | .local _ .vmem, ⟨7, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_call1_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![50], ![false]⟩

def k0_off1 (i : grid0.Coords) : Fin 2 → Nat :=
  let arg0 : BitVec 32 := BitVec.ofNat 32 (i 0).val
  let c200_i32 : BitVec 32 := 200#32
  let v17 : BitVec 32 := Scalar.muli arg0 c200_i32
  let v18 : Index := Scalar.indexCast v17
  let c0_10 : Index := 0#32
  ![v18.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S200x127 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  pads_S128x127_S128x128_000_010 : S128x127.Pads (![0, 0] : Fin 2 → Nat) ![0, 1] ![0, 0] S128x128
  h_S_ : 0 < S_.numel
  bitsLt_bf16_f32 : FTy.bits .bf16 < FTy.bits .f32
  pads_S127_S128_010 : S127.Pads (![0] : Fin 1 → Nat) ![1] ![0] S128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S200x10000_S200x10000_0_0 : ∀ a, (![0, 0] : Fin 2 → Nat) a + S200x10000.size a ≤ S200x10000.size a
  h_S200x10000 : 0 < S200x10000.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  h_S200x128 : 0 < S200x128.numel
  slices_S200x128_o0_0_S200x127 : S200x128.Slices ![0, 0] S200x127
  inb_S200x127_S200x127_0_0 : ∀ a, (![0, 0] : Fin 2 → Nat) a + S200x127.size a ≤ S200x127.size a
  h_S200x127 : 0 < S200x127.numel
  dot_S200x10000_S10000x128_S200x128_1_0_0_1_n_n_wf : DotDims.WF S200x10000 S10000x128 S200x128 [1] [0] [0] [1] [] []
  dot_S200x128_S128x128_S200x128_1_0_0_1_n_n_wf : DotDims.WF S200x128 S128x128 S200x128 [1] [0] [0] [1] [] []
  hrank0 : 0 < grid0.rank
  k0_off1_inb : ∀ i : grid0.Coords, ∀ a, (k0_off1 i) a + S200x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S200x127.size a ≤ S10000x127.size a
  hwx0_4 : ∀ i : grid0.Coords, EltTy.bits .f32 = 32 ∨ (Rect.block (s := S10000x127) S200x127.size (cc0_transform_4 i) (hinb0_4 i)).WholeWords (EltTy.packing .f32)

variable [Facts₀]

def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S200x127.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x127 : Shape := ⟨2, ![128, 127]⟩
abbrev S127 : Shape := ⟨1, ![127]⟩
abbrev S10000x127 : Shape := ⟨2, ![10000, 127]⟩
abbrev S1x127 : Shape := ⟨2, ![1, 127]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x127, .f32⟩
  | .hbm, ⟨3, _⟩ => ⟨S127, .f32⟩
  | .hbm, ⟨4, _⟩ => ⟨S10000x127, .f32⟩
  | .hbm, ⟨5, _⟩ => ⟨S10000x127, .f32⟩
  | .hbm, ⟨6, _⟩ => ⟨S1x127, .f32⟩
  | .hbm, ⟨7, _⟩ => ⟨S10000x127, .f32⟩
  | .hbm, ⟨8, _⟩ => ⟨S10000x127, .f32⟩
  | .hbm, ⟨9, _⟩ => ⟨S_, .f32⟩
  | .hbm, ⟨10, _⟩ => ⟨S10000x127, .f32⟩
  | .hbm, ⟨11, _⟩ => ⟨S10000x127, .f32⟩
  | .hbm, ⟨12, _⟩ => ⟨S10000x127, .f32⟩
  | .hbm, ⟨13, _⟩ => ⟨S10000x127, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]

class Facts₀ : Prop where
  bcast_S127_S1x127_1 : S127.BroadcastsInDim S1x127 (![1] : Fin 1 → Fin S1x127.rank)
  bcast_S1x127_S10000x127_0_1 : S1x127.BroadcastsInDim S10000x127 (![0, 1] : Fin 2 → Fin S10000x127.rank)
  bcast_S_S10000x127 : S_.BroadcastsInDim S10000x127 (![] : Fin 0 → Fin S10000x127.rank)
  slices_S10000x128_S10000x127_0_0 : S10000x128.Slices ![0, 0] S10000x127
  dot_S10000x128_S128x127_S10000x127_1_0_0_1_n_n_wf : DotDims.WF S10000x128 S128x127 S10000x127 [1] [0] [0] [1] [] []
  dot_S10000x10000_S10000x127_S10000x127_1_0_0_1_n_n_wf : DotDims.WF S10000x10000 S10000x127 S10000x127 [1] [0] [0] [1] [] []

variable [Facts₀]

def dot_S10000x128_S128x127_S10000x127_1_0_0_1_n_n : DotDims S10000x128 S128x127 S10000x127 where
  lhsContracting := [1]
  rhsContracting := [0]
  lhsNonContracting := [0]
  rhsNonContracting := [1]
  lhsBatch := []
  rhsBatch := []
  wf := dot_S10000x128_S128x127_S10000x127_1_0_0_1_n_n_wf
def dot_S10000x10000_S10000x127_S10000x127_1_0_0_1_n_n : DotDims S10000x10000 S10000x127 S10000x127 where
  lhsContracting := [1]
  rhsContracting := [0]
  lhsNonContracting := [0]
  rhsNonContracting := [1]
  lhsBatch := []
  rhsBatch := []
  wf := dot_S10000x10000_S10000x127_S10000x127_1_0_0_1_n_n_wf

class Facts : Prop extends Facts₀ where

variable [Facts]
-- ==== Proof.Pieces.lean ====
/-
  What one grid point's body leaves behind, as values of what it loaded.

  The body keeps a copy of the whole input `x` in a buffer that lives across grid points: the first
  point stores it (narrowed to the short float format), every later point finds it as the point
  before left it.  Each point then stores one block of 200 output rows: a function (`k0_pay2`) of the
  point's 200 rows of `adj`, of that copy, of the padded weights and bias, and of the point's own
  200 rows of `x`, which it loads from the resident input at row offset 200·(point).
-/
import proofs.«178397_g781684048050_cont_9to1c4b_217_4_alg».proof.Proof.Gen.KernelIdeal.Value
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- The 200 rows of the resident input that the point at coordinates `i` adds back to its block:
    rows 200·i, …, 200·i + 199, all 128 features. -/
abbrev ownRows (i : grid0.Coords) (x1 : Vec F S10000x128 .f32) : Vec F S200x128 .f32 :=
  View.ld x1 (Rect.unit (s := S10000x128) (k0_off1 i) S200x128.size (k0_off1_inb i))

/-- The first point leaves the narrowed input in the carried buffer. -/
theorem copy_first (c : Dev nD) (i : grid0.Coords) (a1 : Memref sig .tc .vmem S200x10000 .f32) (h1 : a1.IsWhole) (a2 : Memref sig .tc .vmem S10000x128 .f32) (h2 : a2.IsWhole) (a3 : Memref sig .tc .vmem S128x128 .bf16) (h3 : a3.IsWhole) (a4 : Memref sig .tc .vmem S1x128 .f32) (h4 : a4.IsWhole) (a5 : Memref sig .tc .vmem S200x127 .f32) (h5 : a5.IsWhole) (a6 : Memref sig .tc .vmem S10000x128 .bf16) (h6 : a6.IsWhole) (hc : cond0_0 i)
    (x0 : Vec F S200x10000 .f32) (x1 : Vec F S10000x128 .f32) (x2 : Vec F S128x128 .bf16) (x3 : Vec F S1x128 .f32) :
    sout0_A_0 c i a1 h1 a2 h2 a3 h3 a4 h4 a5 h5 a6 h6 hc x0 x1 x2 x3 = k0_pay1 x1 := by
  unfold sout0_A_0
  rw [View.read_writes_eq_canon _ _ _ (scover0_A_0 c i a1 h1 a2 h2 a3 h3 a4 h4 a5 h5 a6 h6 hc x0 x1 x2 x3)]
  unfold kernelRun0_A
  dsimp only
  sl_unfold_words
  rw [View.canon_unit_zero hz]
  simp only [View.readAt_eq_ld, h2.read_unread, View.ld_unit_zero (S := S10000x128) hz]

/-- The first point's block: computed from the copy it has just stored. -/
theorem block_first (c : Dev nD) (i : grid0.Coords) (a1 : Memref sig .tc .vmem S200x10000 .f32) (h1 : a1.IsWhole) (a2 : Memref sig .tc .vmem S10000x128 .f32) (h2 : a2.IsWhole) (a3 : Memref sig .tc .vmem S128x128 .bf16) (h3 : a3.IsWhole) (a4 : Memref sig .tc .vmem S1x128 .f32) (h4 : a4.IsWhole) (a5 : Memref sig .tc .vmem S200x127 .f32) (h5 : a5.IsWhole) (a6 : Memref sig .tc .vmem S10000x128 .bf16) (h6 : a6.IsWhole) (hc : cond0_0 i)
    (x0 : Vec F S200x10000 .f32) (x1 : Vec F S10000x128 .f32) (x2 : Vec F S128x128 .bf16) (x3 : Vec F S1x128 .f32) :
    out0_A_4 c i a1 h1 a2 h2 a3 h3 a4 h4 a5 h5 a6 h6 hc x0 x1 x2 x3 = k0_pay2 x0 (k0_pay1 x1) x2 x3 (ownRows i x1) := by
  unfold out0_A_4
  rw [View.read_writes_eq_canon _ _ _ (cover0_A_4 c i a1 h1 a2 h2 a3 h3 a4 h4 a5 h5 a6 h6 hc x0 x1 x2 x3)]
  unfold kernelRun0_A
  dsimp only
  sl_unfold_words
  rw [View.canon_unit_zero hz]
  simp only [View.readAt_eq_ld, h1.read_unread, h2.read_unread, h3.read_unread, h4.read_unread,
    View.readCov_unit_zero (S := S10000x128) _ hz, View.ld_unit_zero (S := S200x10000) hz,
    View.ld_unit_zero (S := S10000x128) hz, View.ld_unit_zero (S := S128x128) hz, View.ld_unit_zero (S := S1x128) hz]
  rfl

/-- A later point's block: computed from the copy `xs` the point before left. -/
theorem block_later (c : Dev nD) (i : grid0.Coords) (a1 : Memref sig .tc .vmem S200x10000 .f32) (h1 : a1.IsWhole) (a2 : Memref sig .tc .vmem S10000x128 .f32) (h2 : a2.IsWhole) (a3 : Memref sig .tc .vmem S128x128 .bf16) (h3 : a3.IsWhole) (a4 : Memref sig .tc .vmem S1x128 .f32) (h4 : a4.IsWhole) (a5 : Memref sig .tc .vmem S200x127 .f32) (h5 : a5.IsWhole) (a6 : Memref sig .tc .vmem S10000x128 .bf16) (h6 : a6.IsWhole) (hc : ¬cond0_0 i)
    (x0 : Vec F S200x10000 .f32) (x1 : Vec F S10000x128 .f32) (x2 : Vec F S128x128 .bf16) (x3 : Vec F S1x128 .f32) (xs : Vec F S10000x128 .bf16) :
    out0_B_4 c i a1 h1 a2 h2 a3 h3 a4 h4 a5 h5 a6 h6 hc x0 x1 x2 x3 xs = k0_pay2 x0 xs x2 x3 (ownRows i x1) := by
  unfold out0_B_4
  rw [View.read_writes_eq_canon _ _ _ (cover0_B_4 c i a1 h1 a2 h2 a3 h3 a4 h4 a5 h5 a6 h6 hc x0 x1 x2 x3 xs)]
  unfold kernelRun0_B
  dsimp only
  sl_unfold_words
  rw [View.canon_unit_zero hz]
  simp only [View.readAt_eq_ld, h1.read_unread, h2.read_unread, h3.read_unread, h4.read_unread, h6.read_unread,
    View.ld_unit_zero (S := S200x10000) hz, View.ld_unit_zero (S := S10000x128) hz, View.ld_unit_zero (S := S128x128) hz,
    View.ld_unit_zero (S := S1x128) hz]
  rfl

end Cert.KernelIdeal.Pieces

end
-- ==== Proof.Spec.lean ====
/-
  The graph-convolution layer as one function of its four argument arrays, entry by entry, and the
  one law of finite sums that joins its two groupings.

  For a node `r` and an output feature `j < 127` the layer's value is
      max (Σ_n adj[r,n] · (Σ_k x[n,k] · W[k,j]) + b[j], 0) + x[r,j]
  (aggregate the transformed features of every node, add the bias, clamp at zero, add the node's own
  first 127 input features).  Aggregating first and transforming afterwards,
      Σ_k (Σ_n adj[r,n] · x[n,k]) · W[k,j],
  is the same number when every entry is a real: both are the double sum of adj[r,n]·x[n,k]·W[k,j].
  On the extended reals the step needs that, because a product does not distribute over a sum
  through an infinity.
-/
import Idealize.ShloMosaic.PureOps.Ideal
import Idealize.ShloMosaic.PureOps.Ideal.Laws
import Idealize.ShloMosaic.Lib.ValueIdx

noncomputable section

namespace Cert.GcnSpec

open Idealize.ShloMosaic Idealize.ShloMosaic.ValueIdx

/-- The coercion of the reals into the extended reals commutes with a finite sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Aggregating transformed features equals transforming aggregated features, for real entries:
    Σ_n a n · (Σ_k x n k · w k) = Σ_k (Σ_n a n · x n k) · w k. -/
theorem aggregate_transform_comm {N K : Type} [Fintype N] [Fintype K] (a : N → EReal) (x : N → K → EReal) (w : K → EReal)
    (ha : ∀ n, ∃ r : ℝ, a n = (r : EReal)) (hx : ∀ n k, ∃ r : ℝ, x n k = (r : EReal)) (hw : ∀ k, ∃ r : ℝ, w k = (r : EReal)) :
    ∑ n, a n * ∑ k, x n k * w k = ∑ k, (∑ n, a n * x n k) * w k := by
  choose a' ha' using ha
  choose x' hx' using hx
  choose w' hw' using hw
  have hl : ∑ n, a n * ∑ k, x n k * w k = ((∑ n, a' n * ∑ k, x' n k * w' k : ℝ) : EReal) := by
    rw [coe_sum]
    refine Finset.sum_congr rfl fun n _ => ?_
    rw [EReal.coe_mul, coe_sum, ha' n]
    refine congrArg _ (Finset.sum_congr rfl fun k _ => ?_)
    rw [EReal.coe_mul, hx' n k, hw' k]
  have hr : ∑ k, (∑ n, a n * x n k) * w k = ((∑ k, (∑ n, a' n * x' n k) * w' k : ℝ) : EReal) := by
    rw [coe_sum]
    refine Finset.sum_congr rfl fun k _ => ?_
    rw [EReal.coe_mul, coe_sum, hw' k]
    refine congrArg (· * _) (Finset.sum_congr rfl fun n _ => ?_)
    rw [EReal.coe_mul, ha' n, hx' n k]
  rw [hl, hr]
  refine congrArg _ ?_
  simp only [Finset.mul_sum, Finset.sum_mul]
  rw [Finset.sum_comm]
  refine Finset.sum_congr rfl fun k _ => Finset.sum_congr rfl fun n _ => ?_
  ring

abbrev SX : Shape := ⟨2, ![10000, 128]⟩
abbrev SA : Shape := ⟨2, ![10000, 10000]⟩
abbrev SW : Shape := ⟨2, ![128, 127]⟩
abbrev SB : Shape := ⟨1, ![127]⟩
abbrev SO : Shape := ⟨2, ![10000, 127]⟩

/-- Feature `j < 127` of the output as a feature of the 128-wide input. -/
abbrev widen (j : Fin 127) : Fin 128 := ⟨j.val, Nat.lt_of_lt_of_le j.isLt (by decide)⟩

/-- Entry (r, j) of the layer: max (Σ_n adj[r,n] · (Σ_k x[n,k] · W[k,j]) + b[j], 0) + x[r,j]. -/
def entry (x : SX.Idx → EReal) (adj : SA.Idx → EReal) (W : SW.Idx → EReal) (b : SB.Idx → EReal) (r : Fin 10000) (j : Fin 127) : EReal :=
  max ((∑ n : Fin 10000, adj (ix2 r n) * ∑ k : Fin 128, x (ix2 n k) * W (ix2 k j)) + b (ix1 j)) 0 + x (ix2 r (widen j))

/-- The same entry with the aggregation done first: what a program that contracts `adj` against `x`
    before it applies the weights computes. -/
def entryAggFirst (x : SX.Idx → EReal) (adj : SA.Idx → EReal) (W : SW.Idx → EReal) (b : SB.Idx → EReal) (r : Fin 10000) (j : Fin 127) : EReal :=
  max ((∑ k : Fin 128, (∑ n : Fin 10000, adj (ix2 r n) * x (ix2 n k)) * W (ix2 k j)) + b (ix1 j)) 0 + x (ix2 r (widen j))

/-- For real `x`, `adj` and `W` the two groupings are one number (`b` may be anything). -/
theorem entryAggFirst_eq (x : SX.Idx → EReal) (adj : SA.Idx → EReal) (W : SW.Idx → EReal) (b : SB.Idx → EReal)
    (hx : ∀ i, ∃ r : ℝ, x i = (r : EReal)) (hadj : ∀ i, ∃ r : ℝ, adj i = (r : EReal)) (hW : ∀ i, ∃ r : ℝ, W i = (r : EReal))
    (r : Fin 10000) (j : Fin 127) : entryAggFirst x adj W b r j = entry x adj W b r j := by
  unfold entryAggFirst entry
  rw [aggregate_transform_comm (fun n => adj (ix2 r n)) (fun n k => x (ix2 n k)) (fun k => W (ix2 k j))
    (fun n => hadj _) (fun n k => hx _) (fun k => hW _)]

/-- The layer as an array: entry (i 0, i 1) at index i. -/
def layer (x : SX.Idx → EReal) (adj : SA.Idx → EReal) (W : SW.Idx → EReal) (b : SB.Idx → EReal) : SO.Idx → EReal :=
  fun i => entry x adj W b (i 0) (i 1)

theorem layer_apply (x : SX.Idx → EReal) (adj : SA.Idx → EReal) (W : SW.Idx → EReal) (b : SB.Idx → EReal) (r : Fin 10000) (j : Fin 127) :
    layer x adj W b (ix2 r j) = entry x adj W b r j := rfl

end Cert.GcnSpec

end
-- ==== Proof.Operands.lean ====
/-
  What the kernel's region reads, related to the program's four arguments.

  The region has four input windows.  The adjacency moves with the grid: point `t` sees rows
  200·t, …, 200·t + 199.  The input `x`, the padded weights and the padded bias are resident: every
  point sees the whole array.  The weights and the bias reach the region through host operations —
  one zero column (one zero lane) is appended so that both are 128 lanes wide, the weights are
  narrowed to the short float format (the identity on the extended reals) and the bias is laid out
  as one row — so at a feature `j < 127` they read W[k,j] and b[j].
-/
import proofs.«178397_g781684048050_cont_9to1c4b_217_4_alg».proof.Proof.Gen.KernelIdeal.Value
import proofs.«178397_g781684048050_cont_9to1c4b_217_4_alg».proof.Proof.Spec
import Idealize.ShloMosaic.Lib.Pipeline.Value
import Idealize.ShloMosaic.Lib.ValueIdx
import Idealize.ShloMosaic.Lib.KernelVsHost
import Idealize.ShloMosaic.Lib.StableHlo.Run
import Idealize.ShloMosaic.Lib.Tactic
import Idealize.ShloMosaic.PureOps.Ideal

noncomputable section

open Idealize.ShloMosaic Idealize.ShloMosaic.TcCoe Idealize.SL.Sem Idealize.ShloMosaic.StableHlo

namespace Cert.KernelIdeal.Operands

open Cert.KernelIdeal Cert.KernelIdeal.Gen Cert.GcnSpec Idealize.ShloMosaic.ValueIdx

variable (m : (ℓ : Loc nD τ sig) → Buf (Elt Ideal) ℓ)

/-! ### The arrays as the region finds them, and the blocks a point loads -/

abbrev xArr (c : Dev nD) : S10000x128.Idx → EReal := V m c main_arg0
abbrev adjArr (c : Dev nD) : S10000x10000.Idx → EReal := V m c main_arg1
abbrev wArr (c : Dev nD) : S128x128.Idx → EReal := V m c main_v1
abbrev bArr (c : Dev nD) : S1x128.Idx → EReal := V m c main_v3

abbrev adjBlk (c : Dev nD) (t : Fin cfg0.N) : Vec Ideal S200x10000 .f32 := iblk m c 0 t
abbrev xBlk (c : Dev nD) (t : Fin cfg0.N) : Vec Ideal S10000x128 .f32 := iblk m c 1 t
abbrev wBlk (c : Dev nD) (t : Fin cfg0.N) : Vec Ideal S128x128 .bf16 := iblk m c 2 t
abbrev bBlk (c : Dev nD) (t : Fin cfg0.N) : Vec Ideal S1x128 .f32 := iblk m c 3 t

/-- Where the windows' blocks sit, decided over the 50 grid points: the adjacency block and the output
    block of point `t` start at row-block `t`; the resident windows never move. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row 200·t + p of the array, for a local row p of point t's block. -/
abbrev globalRow (t : Fin cfg0.N) (p : Fin 200) : Fin 10000 :=
  ⟨200 * t.val + p.val, by have := t.isLt; have h : cfg0.N = 50 := N_0; have := p.isLt; omega⟩

/-- Point `t`'s adjacency block is rows 200·t … 200·t + 199 of the adjacency. -/
theorem adjBlk_apply (c : Dev nD) (t : Fin cfg0.N) (p : Fin 200) (n : Fin 10000) :
    adjBlk m c t (ix2 p n) = adjArr m c (ix2 (globalRow t p) n) := by
  obtain ⟨e0, e1, -⟩ := block_indices t
  unfold adjBlk iblk
  rw [View.read_apply]
  show V m c main_arg1 _ = V m c main_arg1 _
  congr 1
  funext a
  apply Fin.ext
  match a with
  | ⟨0, _⟩ => show win0_0.index t (0 : Fin 2) * 200 + 1 * p.val = 200 * t.val + p.val; rw [e0]; omega
  | ⟨1, _⟩ => show win0_0.index t (1 : Fin 2) * 10000 + 1 * n.val = n.val; rw [e1]; omega

/-- The resident input block is the whole input. -/
theorem xBlk_eq (c : Dev nD) (t : Fin cfg0.N) : xBlk m c t = xArr m c := by
  obtain ⟨-, -, e0, e1, -⟩ := block_indices t
  funext y
  unfold xBlk iblk
  rw [View.read_apply]
  show V m c main_arg0 _ = V m c main_arg0 _
  congr 1
  funext a
  apply Fin.ext
  match a with
  | ⟨0, _⟩ => show win0_1.index t (0 : Fin 2) * 10000 + 1 * (y 0).val = (y 0).val; rw [e0]; omega
  | ⟨1, _⟩ => show win0_1.index t (1 : Fin 2) * 128 + 1 * (y 1).val = (y 1).val; rw [e1]; omega

/-- The resident weight block is the whole padded weight array. -/
theorem wBlk_eq (c : Dev nD) (t : Fin cfg0.N) : wBlk m c t = wArr m c := by
  obtain ⟨-, -, -, -, e0, e1, -⟩ := block_indices t
  funext y
  unfold wBlk iblk
  rw [View.read_apply]
  show V m c main_v1 _ = V m c main_v1 _
  congr 1
  funext a
  apply Fin.ext
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- The resident bias block is the whole padded bias row. -/
theorem bBlk_eq (c : Dev nD) (t : Fin cfg0.N) : bBlk m c t = bArr m c := by
  obtain ⟨-, -, -, -, -, -, e0, e1, -⟩ := block_indices t
  funext y
  unfold bBlk iblk
  rw [View.read_apply]
  show V m c main_v3 _ = V m c main_v3 _
  congr 1
  funext a
  apply Fin.ext
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega

/-! ### The padded weights and bias -/

/-- The weights the region finds: W with one zero column appended, narrowed. -/
theorem wArr_eq (c : Dev nD) : wArr m c
    = truncf .bf16 (pad S128x128 ![0, 0] ![0, 1] ![0, 0] (m ((c : Thread nD τ).loc main_arg2))
        (sitofp (F := Ideal) .f32 (constantI S_ 32 0#32)) pads_S128x127_S128x128_000_010 h_S_) bitsLt_bf16_f32 := by
  dsimp only [wArr, Gen.V]
  simp only [Gen.hostOps0, Gen.hostOps0_1, Gen.hostOps0_2, Gen.hostOps0_3, Gen.hostOps0_4, List.flatten_cons, List.flatten_nil,
    List.append_nil, List.cons_append, List.nil_append]
  after_results
  rfl

/-- The bias the region finds: b with one zero lane appended, as one row. -/
theorem bArr_eq (c : Dev nD) : bArr m c
    = shapeCast S1x128 (pad S128 ![0] ![1] ![0] (m ((c : Thread nD τ).loc main_arg3))
        (sitofp (F := Ideal) .f32 (constantI S_ 32 0#32)) pads_S127_S128_010 h_S_) shapeCasts_S128_S1x128 := by
  dsimp only [bArr, Gen.V]
  simp only [Gen.hostOps0, Gen.hostOps0_1, Gen.hostOps0_2, Gen.hostOps0_3, Gen.hostOps0_4, List.flatten_cons, List.flatten_nil,
    List.append_nil, List.cons_append, List.nil_append]
  after_results
  rfl

/-- At a feature j < 127 the padded weights read W[k,j]. -/
theorem wArr_apply (c : Dev nD) (k : Fin 128) (j : Fin 127) :
    wArr m c (ix2 k (widen j)) = (m ((c : Thread nD τ).loc main_arg2) : S128x127.Idx → EReal) (ix2 k j) := by
  rw [wArr_eq, truncf_apply]
  exact pad_apply_of_inside ![0, 0] ![0, 1] ![0, 0] _ _ pads_S128x127_S128x128_000_010 h_S_ (ix2 k (widen j)) (ix2 k j) (fun a => match a with
    | ⟨0, _⟩ => by show k.val = 0 + k.val * (0 + 1); omega
    | ⟨1, _⟩ => by show j.val = 0 + j.val * (0 + 1); omega)

/-- At a feature j < 127 the padded bias row reads b[j]. -/
theorem bArr_apply (c : Dev nD) (j : Fin 127) :
    bArr m c (ix2 (0 : Fin 1) (widen j)) = (m ((c : Thread nD τ).loc main_arg3) : S127.Idx → EReal) (ix1 j) := by
  rw [bArr_eq]
  refine (shapeCast_apply _ shapeCasts_S128_S1x128 (ix2 (0 : Fin 1) (widen j)) (ix1 (widen j)) (by
    rw [Shape.rowMajor_val_one, Shape.rowMajor_val_two]; show j.val = 0 * 128 + j.val; omega)).trans ?_
  exact pad_apply_of_inside ![0] ![1] ![0] _ _ pads_S127_S128_010 h_S_ (ix1 (widen j)) (ix1 j) (fun a => match a with
    | ⟨0, _⟩ => by show j.val = 0 + j.val * (0 + 1); omega)

end Cert.KernelIdeal.Operands

end
-- ==== Proof.Carried.lean ====
/-
  The copy of the input that lives across grid points, and the block each point stores.

  Only the first of the 50 points stores the carried buffer; every later point leaves it alone.  So
  after every point it holds the same thing: the narrowed copy of the whole input.  Hence every
  point — the first, which reads the copy it has just stored, and the later ones, which read what
  the point before left — stores the same function of its own adjacency rows, the copy, the padded
  weights and bias, and its own rows of the input.
-/
import proofs.«178397_g781684048050_cont_9to1c4b_217_4_alg».proof.Proof.Pieces
import proofs.«178397_g781684048050_cont_9to1c4b_217_4_alg».proof.Proof.Operands

noncomputable section

open Idealize.ShloMosaic Idealize.ShloMosaic.TcCoe Idealize.SL.Sem

namespace Cert.KernelIdeal.Carried

open Cert.KernelIdeal Cert.KernelIdeal.Gen Cert.KernelIdeal.Pieces Cert.KernelIdeal.Operands Cert.GcnSpec
  Idealize.ShloMosaic.ValueIdx

variable (m : (ℓ : Loc nD τ sig) → Buf (Elt Ideal) ℓ)

/-- The copy of the input the first point stores. -/
abbrev copy (c : Dev nD) : Vec Ideal S10000x128 .bf16 := k0_pay1 (F := Ideal) (xArr m c)

/-- The block function respects equality of each of its five operands. -/
theorem block_congr {a a' : Vec Ideal S200x10000 .f32} {xb xb' : Vec Ideal S10000x128 .bf16} {w w' : Vec Ideal S128x128 .bf16}
    {bi bi' : Vec Ideal S1x128 .f32} {o o' : Vec Ideal S200x128 .f32} (ha : a = a') (hx : xb = xb') (hw : w = w') (hb : bi = bi')
    (ho : o = o') : k0_pay2 (F := Ideal) a xb w bi o = k0_pay2 (F := Ideal) a' xb' w' bi' o' := by
  subst ha hx hw hb ho; rfl

/-- AFTER EVERY POINT the carried buffer holds the copy: the first point stores it, the others keep it. -/
theorem carried_eq (c : Dev nD) : ∀ (n : ℕ) (h : n < cfg0.N), (outsAt0 m c n h).2 = copy m c
  | 0, h => by
    rw [outsAt0_A m c ⟨0, h⟩ rfl]
    dsimp only
    exact (copy_first (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) ((hcond0_0 ⟨0, h⟩).mpr rfl) (adjBlk m c ⟨0, h⟩) (xBlk m c ⟨0, h⟩) (wBlk m c ⟨0, h⟩) (bBlk m c ⟨0, h⟩)).trans
      (congrArg (k0_pay1 (F := Ideal)) (xBlk_eq m c ⟨0, h⟩))
  | n + 1, h => by
    have hN : cfg0.N = 50 := N_0
    have hB : ¬(⟨n + 1, h⟩ : Fin cfg0.N).val % 50 = 0 := by dsimp only; omega
    rw [outsAt0_B m c ⟨n + 1, h⟩ hB]
    dsimp only
    unfold sout0_B_0
    exact carried_eq c n _

/-- WHAT POINT `t` STORES: the block function of its adjacency rows, the copy, the padded weights and bias,
    and its own rows of the input. -/
theorem stored_eq (c : Dev nD) (t : Fin cfg0.N) :
    (outsAt0 m c t.val t.isLt).1
      = k0_pay2 (F := Ideal) (adjBlk m c t) (copy m c) (wArr m c) (bArr m c) (ownRows (grid0.coords t) (xArr m c)) := by
  by_cases h0 : t.val % 50 = 0
  · rw [outsAt0_A m c t h0]
    dsimp only
    refine (block_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (adjBlk m c t) (xBlk m c t) (wBlk m c t) (bBlk m c t)).trans ?_
    exact block_congr rfl (congrArg (k0_pay1 (F := Ideal)) (xBlk_eq m c t)) (wBlk_eq m c t) (bBlk_eq m c t)
      (congrArg (ownRows (grid0.coords t)) (xBlk_eq m c t))
  · rw [outsAt0_B m c t h0]
    dsimp only
    refine (block_later (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (adjBlk m c t) (xBlk m c t) (wBlk m c t) (bBlk m c t)
      (outsAt0 m c (t.val - 1) (Nat.lt_of_le_of_lt (Nat.sub_le _ _) t.isLt)).2).trans ?_
    exact block_congr rfl (carried_eq m c (t.val - 1) _) (wBlk_eq m c t) (bBlk_eq m c t)
      (congrArg (ownRows (grid0.coords t)) (xBlk_eq m c t))

/-- Where a point loads its own rows from, decided over the grid: row offset 200·t, lane offset 0. -/
theorem own_offsets : ∀ t : Fin cfg0.N, k0_off1 (grid0.coords t) (0 : Fin 2) = 200 * t.val ∧ k0_off1 (grid0.coords t) (1 : Fin 2) = 0 :=
  (by decide +kernel : ∀ t : Fin grid0.N, _)

/-- Point `t`'s own rows are rows 200·t … 200·t + 199 of the input. -/
theorem ownRows_apply (X : Vec Ideal S10000x128 .f32) (t : Fin cfg0.N) (p : Fin 200) (q : Fin 128) :
    ownRows (grid0.coords t) X (ix2 p q) = X (ix2 (globalRow t p) q) := by
  obtain ⟨e0, e1⟩ := own_offsets t
  show X _ = X _
  congr 1
  funext a
  apply Fin.ext
  match a with
  | ⟨0, _⟩ => show k0_off1 (grid0.coords t) (0 : Fin 2) + 1 * p.val = 200 * t.val + p.val; rw [e0]; omega
  | ⟨1, _⟩ => show k0_off1 (grid0.coords t) (1 : Fin 2) + 1 * q.val = q.val; rw [e1]; omega

end Cert.KernelIdeal.Carried

end
-- ==== Proof.Payload.lean ====
/-
  One output block of the kernel, entry by entry, on the extended reals.

  At local row `p` and feature `j < 127` the block a grid point stores is
      max (Σ_k (Σ_n a[p,n] · xb[n,k]) · w[k,j] + bias[0,j], 0) + own[p,j]
  where `a` is the point's 200 rows of the adjacency, `xb` the resident copy of the input, `w` and
  `bias` the weights and bias padded to 128 lanes, and `own` the point's own 200 rows of the input:
  the first matrix product aggregates, the second transforms, and the last lane is cut off.
  A change of float format is the identity on the extended reals.
-/
import proofs.«178397_g781684048050_cont_9to1c4b_217_4_alg».proof.Proof.Gen.KernelIdeal.Skeleton
import proofs.«178397_g781684048050_cont_9to1c4b_217_4_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem

namespace Cert.KernelIdeal.Payload

open Cert.KernelIdeal Cert.KernelIdeal.Gen Cert.GcnSpec Idealize.ShloMosaic.ValueIdx

/-! ### The two matrix products at an entry -/

theorem agg_lhs_0 (i : S200x128.Idx) (q : dot_S200x10000_S10000x128_S200x128_1_0_0_1_n_n.contr.Idx) : (dot_S200x10000_S10000x128_S200x128_1_0_0_1_n_n.lhsIdx i q 0).val = (i 0).val := by
  unfold DotDims.lhsIdx
  rw [dif_neg (show ¬(0 : Fin S200x10000.rank) ∈ dot_S200x10000_S10000x128_S200x128_1_0_0_1_n_n.lhsBatch by decide), dif_pos (show (0 : Fin S200x10000.rank) ∈ dot_S200x10000_S10000x128_S200x128_1_0_0_1_n_n.lhsNonContracting by decide)]
  rfl
theorem agg_lhs_1 (i : S200x128.Idx) (q : dot_S200x10000_S10000x128_S200x128_1_0_0_1_n_n.contr.Idx) : (dot_S200x10000_S10000x128_S200x128_1_0_0_1_n_n.lhsIdx i q 1).val = (q ⟨0, by decide⟩).val :=
  dot_S200x10000_S10000x128_S200x128_1_0_0_1_n_n.lhsIdx_val_of_single rfl i q
theorem agg_rhs_0 (i : S200x128.Idx) (q : dot_S200x10000_S10000x128_S200x128_1_0_0_1_n_n.contr.Idx) : (dot_S200x10000_S10000x128_S200x128_1_0_0_1_n_n.rhsIdx i q 0).val = (q ⟨0, by decide⟩).val :=
  dot_S200x10000_S10000x128_S200x128_1_0_0_1_n_n.rhsIdx_val_of_single rfl i q
theorem agg_rhs_1 (i : S200x128.Idx) (q : dot_S200x10000_S10000x128_S200x128_1_0_0_1_n_n.contr.Idx) : (dot_S200x10000_S10000x128_S200x128_1_0_0_1_n_n.rhsIdx i q 1).val = (i 1).val := by
  unfold DotDims.rhsIdx
  rw [dif_neg (show ¬(1 : Fin S10000x128.rank) ∈ dot_S200x10000_S10000x128_S200x128_1_0_0_1_n_n.rhsBatch by decide), dif_pos (show (1 : Fin S10000x128.rank) ∈ dot_S200x10000_S10000x128_S200x128_1_0_0_1_n_n.rhsNonContracting by decide)]
  rfl

theorem lin_lhs_0 (i : S200x128.Idx) (q : dot_S200x128_S128x128_S200x128_1_0_0_1_n_n.contr.Idx) : (dot_S200x128_S128x128_S200x128_1_0_0_1_n_n.lhsIdx i q 0).val = (i 0).val := by
  unfold DotDims.lhsIdx
  rw [dif_neg (show ¬(0 : Fin S200x128.rank) ∈ dot_S200x128_S128x128_S200x128_1_0_0_1_n_n.lhsBatch by decide), dif_pos (show (0 : Fin S200x128.rank) ∈ dot_S200x128_S128x128_S200x128_1_0_0_1_n_n.lhsNonContracting by decide)]
  rfl
theorem lin_lhs_1 (i : S200x128.Idx) (q : dot_S200x128_S128x128_S200x128_1_0_0_1_n_n.contr.Idx) : (dot_S200x128_S128x128_S200x128_1_0_0_1_n_n.lhsIdx i q 1).val = (q ⟨0, by decide⟩).val :=
  dot_S200x128_S128x128_S200x128_1_0_0_1_n_n.lhsIdx_val_of_single rfl i q
theorem lin_rhs_0 (i : S200x128.Idx) (q : dot_S200x128_S128x128_S200x128_1_0_0_1_n_n.contr.Idx) : (dot_S200x128_S128x128_S200x128_1_0_0_1_n_n.rhsIdx i q 0).val = (q ⟨0, by decide⟩).val :=
  dot_S200x128_S128x128_S200x128_1_0_0_1_n_n.rhsIdx_val_of_single rfl i q
theorem lin_rhs_1 (i : S200x128.Idx) (q : dot_S200x128_S128x128_S200x128_1_0_0_1_n_n.contr.Idx) : (dot_S200x128_S128x128_S200x128_1_0_0_1_n_n.rhsIdx i q 1).val = (i 1).val := by
  unfold DotDims.rhsIdx
  rw [dif_neg (show ¬(1 : Fin S128x128.rank) ∈ dot_S200x128_S128x128_S200x128_1_0_0_1_n_n.rhsBatch by decide), dif_pos (show (1 : Fin S128x128.rank) ∈ dot_S200x128_S128x128_S200x128_1_0_0_1_n_n.rhsNonContracting by decide)]
  rfl

/-- The aggregation: rows of the adjacency block against the resident copy, Σ_n a[p,n] · xb[n,q]. -/
theorem aggregate_apply {φ₁ φ₂ : FTy} (l : FVec Ideal S200x10000 φ₁) (r : FVec Ideal S10000x128 φ₂) (p : Fin 200) (q : Fin 128) :
    matmul dot_S200x10000_S10000x128_S200x128_1_0_0_1_n_n none l r (constant S200x128 .f32 0x00000000#32) (ix2 p q) = ∑ k : Fin 10000, l (ix2 p k) * r (ix2 k q) := by
  simp only [matmul]
  rw [Ideal.matmul_constant_zero_apply, ← Equiv.sum_comp (ValueIdx.contrEquiv1 dot_S200x10000_S10000x128_S200x128_1_0_0_1_n_n 10000 rfl rfl).symm]
  refine Finset.sum_congr rfl fun k _ => ?_
  have hk := ValueIdx.contrEquiv1_symm_val dot_S200x10000_S10000x128_S200x128_1_0_0_1_n_n 10000 rfl rfl k
  have el : dot_S200x10000_S10000x128_S200x128_1_0_0_1_n_n.lhsIdx (ix2 p q) ((ValueIdx.contrEquiv1 dot_S200x10000_S10000x128_S200x128_1_0_0_1_n_n 10000 rfl rfl).symm k) = ix2 p k := funext fun a => Fin.ext (by
    match a with
    | ⟨0, _⟩ => exact agg_lhs_0 _ _
    | ⟨1, _⟩ => exact (agg_lhs_1 _ _).trans hk)
  have er : dot_S200x10000_S10000x128_S200x128_1_0_0_1_n_n.rhsIdx (ix2 p q) ((ValueIdx.contrEquiv1 dot_S200x10000_S10000x128_S200x128_1_0_0_1_n_n 10000 rfl rfl).symm k) = ix2 k q := funext fun a => Fin.ext (by
    match a with
    | ⟨0, _⟩ => exact (agg_rhs_0 _ _).trans hk
    | ⟨1, _⟩ => exact agg_rhs_1 _ _)
  rw [el, er]

/-- The weight product: Σ_k h[p,k] · w[k,q]. -/
theorem transform_apply {φ₁ φ₂ : FTy} (l : FVec Ideal S200x128 φ₁) (r : FVec Ideal S128x128 φ₂) (p : Fin 200) (q : Fin 128) :
    matmul dot_S200x128_S128x128_S200x128_1_0_0_1_n_n none l r (constant S200x128 .f32 0x00000000#32) (ix2 p q) = ∑ k : Fin 128, l (ix2 p k) * r (ix2 k q) := by
  simp only [matmul]
  rw [Ideal.matmul_constant_zero_apply, ← Equiv.sum_comp (ValueIdx.contrEquiv1 dot_S200x128_S128x128_S200x128_1_0_0_1_n_n 128 rfl rfl).symm]
  refine Finset.sum_congr rfl fun k _ => ?_
  have hk := ValueIdx.contrEquiv1_symm_val dot_S200x128_S128x128_S200x128_1_0_0_1_n_n 128 rfl rfl k
  have el : dot_S200x128_S128x128_S200x128_1_0_0_1_n_n.lhsIdx (ix2 p q) ((ValueIdx.contrEquiv1 dot_S200x128_S128x128_S200x128_1_0_0_1_n_n 128 rfl rfl).symm k) = ix2 p k := funext fun a => Fin.ext (by
    match a with
    | ⟨0, _⟩ => exact lin_lhs_0 _ _
    | ⟨1, _⟩ => exact (lin_lhs_1 _ _).trans hk)
  have er : dot_S200x128_S128x128_S200x128_1_0_0_1_n_n.rhsIdx (ix2 p q) ((ValueIdx.contrEquiv1 dot_S200x128_S128x128_S200x128_1_0_0_1_n_n 128 rfl rfl).symm k) = ix2 k q := funext fun a => Fin.ext (by
    match a with
    | ⟨0, _⟩ => exact (lin_rhs_0 _ _).trans hk
    | ⟨1, _⟩ => exact lin_rhs_1 _ _)
  rw [el, er]

/-- The padded bias row laid over the 200 rows reads bias[0,q] at (p, q). -/
theorem bias_apply (bias : Vec Ideal S1x128 .f32) (p : Fin 200) (q : Fin 128) :
    broadcastTo S200x128 bias broadcasts_S1x128_S200x128 (ix2 p q) = bias (ix2 (0 : Fin 1) q) := by
  exact broadcastTo_apply bias broadcasts_S1x128_S200x128 (ix2 p q) (ix2 (0 : Fin 1) q) (fun a => match a with
    | ⟨0, _⟩ => by show (0 : Nat) = if (1 : Nat) = 1 then 0 else _; rw [if_pos rfl]
    | ⟨1, _⟩ => by show q.val = if (128 : Nat) = 1 then 0 else q.val; rw [if_neg (by decide)])

/-- The block at local row `p` and feature `j < 127`. -/
theorem block_apply (a : Vec Ideal S200x10000 .f32) (xb : Vec Ideal S10000x128 .bf16) (w : Vec Ideal S128x128 .bf16)
    (bias : Vec Ideal S1x128 .f32) (own : Vec Ideal S200x128 .f32) (p : Fin 200) (j : Fin 127) :
    k0_pay2 a xb w bias own (ix2 p j)
      = max ((∑ k : Fin 128, (∑ n : Fin 10000, a (ix2 p n) * xb (ix2 n k)) * w (ix2 k (widen j))) + bias (ix2 (0 : Fin 1) (widen j))) 0
        + own (ix2 p (widen j)) := by
  unfold k0_pay2
  refine (extractStridedSlice_apply ![0, 0] _ slices_S200x128_o0_0_S200x127 (ix2 p j) (ix2 p (widen j)) (fun a => match a with
    | ⟨0, _⟩ => by show p.val = 0 + p.val; omega
    | ⟨1, _⟩ => by show j.val = 0 + j.val; omega)).trans ?_
  simp only [addf_apply, maximumf_apply, broadcast_apply, transform_apply, truncf_apply, aggregate_apply, bias_apply,
    shapeCast_self, Ideal.ofBits_def, Ideal.ofBits_zero_f32]
  rw [bias_apply bias p (widen j)]

end Cert.KernelIdeal.Payload

end
-- ==== Proof.Array.lean ====
/-
  From blocks to the result array.

  Point `t` writes its block of 200 rows back to rows 200·t … 200·t + 199 of the result; the 50 blocks
  tile the 10000 rows.  Entry (p, j) of point `t`'s block is the layer's entry at node 200·t + p and
  feature j, in the grouping that aggregates first.  So after the run the result array is that function of
  the four arguments, everywhere.
-/
import proofs.«178397_g781684048050_cont_9to1c4b_217_4_alg».proof.Proof.Carried
import proofs.«178397_g781684048050_cont_9to1c4b_217_4_alg».proof.Proof.Payload

noncomputable section

open Idealize.ShloMosaic Idealize.ShloMosaic.TcCoe Idealize.SL.Sem
open Idealize.ShloMosaic.Pipeline (Dat)

namespace Cert.KernelIdeal.Result

open Cert.KernelIdeal Cert.KernelIdeal.Gen Cert.KernelIdeal.Value Cert.KernelIdeal.Pieces Cert.KernelIdeal.Operands
  Cert.KernelIdeal.Carried Cert.KernelIdeal.Payload Cert.GcnSpec Idealize.ShloMosaic.ValueIdx

variable (m : (ℓ : Loc nD τ sig) → Buf (Elt Ideal) ℓ) (ρ : Dev nD → PrngReg)

/-- The four arguments as launched, on core `c`. -/
abbrev argX (c : Dev nD) : S10000x128.Idx → EReal := m ((c : Thread nD τ).loc main_arg0)
abbrev argAdj (c : Dev nD) : S10000x10000.Idx → EReal := m ((c : Thread nD τ).loc main_arg1)
abbrev argW (c : Dev nD) : S128x127.Idx → EReal := m ((c : Thread nD τ).loc main_arg2)
abbrev argB (c : Dev nD) : S127.Idx → EReal := m ((c : Thread nD τ).loc main_arg3)

/-- What the result array ends holding: the layer, aggregation first, of the four arguments. -/
def result (c : Dev nD) : S10000x127.Idx → EReal :=
  fun i => entryAggFirst (argX m c) (argAdj m c) (argW m c) (argB m c) (i 0) (i 1)

theorem result_apply (c : Dev nD) (r : Fin 10000) (j : Fin 127) :
    result m c (ix2 r j) = entryAggFirst (argX m c) (argAdj m c) (argW m c) (argB m c) r j := rfl

/-- The copy is the input, entry by entry: narrowing is the identity on the extended reals. -/
theorem copy_apply (c : Dev nD) (y : S10000x128.Idx) : copy m c y = argX m c y := by
  unfold copy k0_pay1
  rw [shapeCast_self]
  exact congrFun (V_main_arg0 m c) y

/-- Entry (p, j) of point `t`'s block is the layer's entry at node 200·t + p, feature j. -/
theorem stored_apply (c : Dev nD) (t : Fin cfg0.N) (p : Fin 200) (j : Fin 127) :
    k0_pay2 (F := Ideal) (adjBlk m c t) (copy m c) (wArr m c) (bArr m c) (ownRows (grid0.coords t) (xArr m c)) (ix2 p j)
      = entryAggFirst (argX m c) (argAdj m c) (argW m c) (argB m c) (globalRow t p) j := by
  rw [block_apply, ownRows_apply, bArr_apply]
  unfold entryAggFirst
  have hx : xArr m c = argX m c := V_main_arg0 m c
  have ha : adjArr m c = argAdj m c := V_main_arg1 m c
  simp only [adjBlk_apply, hx, ha]
  refine congrArg (fun s => max (s + argB m c (ix1 j)) 0 + argX m c (ix2 (globalRow t p) (widen j))) ?_
  refine Finset.sum_congr rfl fun k _ => ?_
  rw [wArr_apply]
  refine congrArg (· * argW m c (ix2 k j)) (Finset.sum_congr rfl fun n _ => ?_)
  rw [copy_apply]

/-- An entry of point `t`'s block is the result at the index it is written back to: local row y₀ goes to
    row 200·t + y₀, the feature stays. -/
theorem stored_is_result (c : Dev nD) (t : Fin cfg0.N) (y : S200x127.Idx) (I : S10000x127.Idx)
    (h0 : (I 0).val = 200 * t.val + (y 0).val) (h1 : (I 1).val = (y 1).val) :
    k0_pay2 (F := Ideal) (adjBlk m c t) (copy m c) (wArr m c) (bArr m c) (ownRows (grid0.coords t) (xArr m c)) y = result m c I := by
  obtain ⟨p, j, rfl⟩ : ∃ (p : Fin 200) (j : Fin 127), y = ix2 p j := ⟨y 0, y 1, eq_ix2 y⟩
  obtain rfl : I = ix2 (globalRow t p) j := funext fun a => Fin.ext (by
    match a with
    | ⟨0, _⟩ => exact h0
    | ⟨1, _⟩ => exact h1)
  rw [result_apply]
  exact stored_apply m c t p j

/-- WHAT POINT `t` WRITES BACK is block `t` of the result. -/
theorem flushed_eq (c : Dev nD) (t : Fin cfg0.N) :
    (dats m 0 c).flushed 4 t = ((cfg0.win 4).blk t).view.read (Elt Ideal) (result m c) := by
  obtain ⟨-, -, -, -, -, -, -, -, e0, e1⟩ := block_indices t
  show (cfg0.win 4).cut (grid0.coords t) ((dats m 0 c).after 4 t) = _
  rw [after0_4, stored_eq]
  funext y
  exact stored_is_result m c t y (((cfg0.win 4).blk t).view.emb y)
    (by show win0_4.index t (0 : Fin 2) * 200 + 1 * (y 0).val = 200 * t.val + (y 0).val; rw [e0]; omega)
    (by show win0_4.index t (1 : Fin 2) * 127 + 1 * (y 1).val = (y 1).val; rw [e1]; omega)

/-- An index of the result is in point `t`'s block iff its row is one of the block's 200 rows. -/
theorem mem_block (t : Fin cfg0.N) (i : S10000x127.Idx) :
    i ∈ ((cfg0.win 4).blk t).view.set ↔ ∀ a : Fin 2, win0_4.index t a * S200x127.size a ≤ (i a).val ∧ (i a).val < win0_4.index t a * S200x127.size a + S200x127.size a := by
  show i ∈ ((View.whole main_v4).slice (win0_4.rect t)).set ↔ _
  rw [View.set_slice_whole, Rect.mem_set_unit]
  exact Iff.rfl

/-- Every index of the result lies in the block of the point its row belongs to: row r in block r / 200. -/
theorem covered (i : S10000x127.Idx) : ∃ t : Fin cfg0.N, (cfg0.win 4).flush t = true ∧ i ∈ ((cfg0.win 4).blk t).view.set := by
  have hN : cfg0.N = 50 := N_0
  have hi0 : (i 0).val < 10000 := (i 0).isLt
  have hi1 : (i 1).val < 127 := (i 1).isLt
  refine ⟨⟨(i 0).val / 200, by omega⟩, flush0_4 _, ?_⟩
  obtain ⟨-, -, -, -, -, -, -, -, e0, e1⟩ := block_indices ⟨(i 0).val / 200, by omega⟩
  rw [mem_block]
  intro a
  match a with
  | ⟨0, _⟩ =>
    show win0_4.index _ (0 : Fin 2) * 200 ≤ (i 0).val ∧ (i 0).val < win0_4.index _ (0 : Fin 2) * 200 + 200
    rw [e0]; dsimp only; omega
  | ⟨1, _⟩ =>
    show win0_4.index _ (1 : Fin 2) * 127 ≤ (i 1).val ∧ (i 1).val < win0_4.index _ (1 : Fin 2) * 127 + 127
    rw [e1]; omega

/-- THE RESULT ARRAY after the run. -/
theorem final (c : Dev nD) : (dats m 0 c).arrAt 4 cfg0.N = result m c :=
  (dats m 0 c).arrAt_eq_of_cover 4 (result m c) (fun t _ => flushed_eq m c t) (covered)

/-- The kernel's run, read: the result array at `result`, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Result

end
-- ==== Proof.RefLayer.lean ====
/-
  The reference program's result, read one operation at a time, is the layer of `Spec.lean`:
  its two matrix products are the nested sums Σ_n adj[r,n] · (Σ_k x[n,k] · W[k,j]), the bias row laid
  over every node is b[j], the clamp is a maximum with zero, and the slice of the input keeps
  feature j of node r.
-/
import proofs.«178397_g781684048050_cont_9to1c4b_217_4_alg».proof.Proof.Gen.ReferenceIdeal.Read
import proofs.«178397_g781684048050_cont_9to1c4b_217_4_alg».proof.Proof.Spec

noncomputable section

namespace Cert.ReferenceIdeal.RefValue

open Cert.ReferenceIdeal Cert.ReferenceIdeal.Read Cert.GcnSpec Idealize.ShloMosaic Idealize.ShloMosaic.ValueIdx

/-- Row `r` of the adjacency against column `j` of the support: the left factor is adj[r,n], -/
theorem adj_index (r : Fin 10000) (j : Fin 127) (n : Fin 10000) : lidx_main_v1 (ix2 r j) n = ix2 r n :=
  funext fun a => Fin.ext (by match a with | ⟨0, _⟩ => rfl | ⟨1, _⟩ => rfl)

/-- and the right factor is the support at (n, j). -/
theorem support_index (r : Fin 10000) (j : Fin 127) (n : Fin 10000) : ridx_main_v1 (ix2 r j) n = ix2 n j :=
  funext fun a => Fin.ext (by match a with | ⟨0, _⟩ => rfl | ⟨1, _⟩ => rfl)

/-- The support at (n, j) multiplies x[n,k] -/
theorem x_index (n : Fin 10000) (j : Fin 127) (k : Fin 128) : lidx_main_v0 (ix2 n j) k = ix2 n k :=
  funext fun a => Fin.ext (by match a with | ⟨0, _⟩ => rfl | ⟨1, _⟩ => rfl)

/-- by W[k,j]. -/
theorem w_index (n : Fin 10000) (j : Fin 127) (k : Fin 128) : ridx_main_v0 (ix2 n j) k = ix2 k j :=
  funext fun a => Fin.ext (by match a with | ⟨0, _⟩ => rfl | ⟨1, _⟩ => rfl)

/-- The bias row laid over every node reads b[j]. -/
theorem b_index (r : Fin 10000) (j : Fin 127) : idx_main_v2 (idx_main_v3 (ix2 r j)) = ix1 j :=
  funext fun a => Fin.ext (by match a with | ⟨0, _⟩ => rfl)

/-- The slice of the input keeps feature j of node r. -/
theorem res_index (r : Fin 10000) (j : Fin 127) : idx_main_v6 (ix2 r j) = ix2 r (widen j) :=
  funext fun a => Fin.ext (by match a with | ⟨0, _⟩ => rfl | ⟨1, _⟩ => rfl)

/-- The support x·W at (n, j) is Σ_k x[n,k] · W[k,j]. -/
theorem support_apply (x : S10000x128.Idx → EReal) (W : S128x127.Idx → EReal) (n : Fin 10000) (j : Fin 127) :
    val_main_v0 (F := Ideal) x W (ix2 n j) = ∑ k : Fin 128, x (ix2 n k) * W (ix2 k j) := by
  rw [val_main_v0_apply]
  simp only [x_index, w_index]

/-- The reference's result array is the layer of its four arguments, entry by entry. -/
theorem reference_is_layer (x : S10000x128.Idx → EReal) (adj : S10000x10000.Idx → EReal) (W : S128x127.Idx → EReal) (b : S127.Idx → EReal) :
    val_main_v7 (F := Ideal) x adj W b = layer x adj W b := by
  funext i
  obtain ⟨r, j, rfl⟩ : ∃ (r : Fin 10000) (j : Fin 127), i = ix2 r j := ⟨i 0, i 1, eq_ix2 i⟩
  rw [layer_apply, val_main_v7_apply, val_main_v5_apply, val_main_v4_apply, val_main_v1_apply, val_main_v3_apply, val_main_v2_apply,
    val_main_call0_v0_apply, val_main_call0_cst_apply, val_main_v6_apply]
  simp only [adj_index, support_index, b_index, res_index, support_apply, Ideal.addf_def, Ideal.maximumf_def, Ideal.ofBits_def,
    Ideal.ofBits_zero_f32]
  rfl

end Cert.ReferenceIdeal.RefValue

end
-- ==== Proof.Finite.lean ====
/-
  From the precondition to real entries.

  The precondition says, of each of the four arrays, that every entry's absolute value compares below
  +∞, all four conjoined.  An extended real whose absolute value is below +∞ is a real number: so
  under the precondition every entry of every argument is (the coercion of) a real.
-/
import proofs.«178397_g781684048050_cont_9to1c4b_217_4_alg».proof.Pre_finite_inputs
import Idealize.ShloMosaic.Lib.ReduceAll
import Idealize.ShloMosaic.Lib.ValueIdx
import Idealize.ShloMosaic.PureOps.Ideal

noncomputable section

namespace Cert.Pre_finite_inputs.Finite

open Cert.Pre_finite_inputs Idealize.ShloMosaic

variable [Facts]
open Facts

instance : Subsingleton S_.Idx := ⟨fun a b => funext fun d => d.elim0⟩

/-- The word of +∞ denotes the top of the extended reals. -/
theorem inf_word : Ideal.ofBits .f32 0x7F800000#32 = (⊤ : EReal) := by simp [Ideal.ofBits, Ideal.ieee]

/-- If |x| < +∞ holds (the comparison's bit is one) then x is a real. -/
theorem real_of_abs_lt_inf (x : EReal) (h : Ideal.cmp .olt (max x (-x)) (Ideal.ofBits .f32 0x7F800000#32) = 1#1) :
    ∃ r : ℝ, x = (r : EReal) := by
  rw [inf_word] at h
  induction x using EReal.rec with
  | bot => exfalso; revert h; simp [Ideal.cmp]
  | coe r => exact ⟨r, rfl⟩
  | top => exfalso; revert h; simp [Ideal.cmp]

/-- One array: if `all (|x| < +∞)` came out true then every entry is a real. -/
theorem all_real {s : Shape} {axes : List (Fin s.rank)} (x : FVec Ideal s .f32) (bc : S_.BroadcastsInDim s (![] : Fin 0 → Fin s.rank))
    (hr : s.ReducesTo axes S_)
    (h : Host.reduce IntOp.andi (cmpf .olt (Host.absf x) (broadcastInDim s ![] bc (constant S_ .f32 0x7F800000#32)))
      (constantI S_ 1 1#1) hr h_S_ ValueIdx.ix0 = 1#1) (i : s.Idx) : ∃ r : ℝ, x i = (r : EReal) :=
  real_of_abs_lt_inf (x i) (Host.reduce_andi_all _ _ hr h_S_ ValueIdx.ix0 h i)

/-- Under the precondition all four arguments have real entries. -/
theorem reals_of_pre (x : FVec Ideal S10000x128 .f32) (adj : FVec Ideal S10000x10000 .f32) (W : FVec Ideal S128x127 .f32)
    (b : FVec Ideal S127 .f32) (h : fn (F := Ideal) x adj W b = fun _ => 1#1) :
    (∀ i, ∃ r : ℝ, x i = (r : EReal)) ∧ (∀ i, ∃ r : ℝ, adj i = (r : EReal)) ∧ (∀ i, ∃ r : ℝ, W i = (r : EReal))
      ∧ (∀ i, ∃ r : ℝ, b i = (r : EReal)) := by
  have h0 := congrFun h ValueIdx.ix0
  dsimp only [fn, fn_part1] at h0
  obtain ⟨h123, h4⟩ := IntOp.andi_eq_one.1 h0
  obtain ⟨h12, h3⟩ := IntOp.andi_eq_one.1 h123
  obtain ⟨h1, h2⟩ := IntOp.andi_eq_one.1 h12
  exact ⟨all_real x bcast_S_S10000x128 reducesTo_S10000x128_S_d0_1 h1, all_real adj bcast_S_S10000x10000 reducesTo_S10000x10000_S_d0_1 h2,
    all_real W bcast_S_S128x127 reducesTo_S128x127_S_d0_1 h3, all_real b bcast_S_S127 reducesTo_S127_S_d0 h4⟩

end Cert.Pre_finite_inputs.Finite

end
-- ==== Proof.lean ====
/-
  A graph-convolution layer on 10000 nodes, 128 input and 127 output features:
      out[r,j] = max (Σ_n adj[r,n] · (Σ_k x[n,k] · W[k,j]) + b[j], 0) + x[r,j].

  The reference transforms first (x·W) and aggregates afterwards (adj·(x·W)).  The kernel walks the
  adjacency once, 200 rows per grid point: it aggregates first, (adj·x), against a copy of x that the
  first grid point stores and all 50 points share, then transforms, (adj·x)·W, with W and b padded by
  one zero lane that is cut off again, clamps at zero and adds the point's own rows of x.

  On the extended reals the two groupings of the double sum agree when the entries are real numbers,
  which the precondition (all inputs finite) provides; changes of float format are the identity there.
  So both programs end with the same array (`algebraic`).  The three frames are the generated frame
  runs (the reference's is its generated run with the result dropped), and the idealization rewrote
  nothing, so `preserves` is trivial.
-/
import proofs.«178397_g781684048050_cont_9to1c4b_217_4_alg».proof.Defs
import proofs.«178397_g781684048050_cont_9to1c4b_217_4_alg».proof.Proof.Gen.Kernel
import proofs.«178397_g781684048050_cont_9to1c4b_217_4_alg».proof.Proof.Gen.Kernel.Skeleton
import proofs.«178397_g781684048050_cont_9to1c4b_217_4_alg».proof.Proof.Gen.Kernel.Launch
import proofs.«178397_g781684048050_cont_9to1c4b_217_4_alg».proof.Proof.Gen.Kernel.Points
import proofs.«178397_g781684048050_cont_9to1c4b_217_4_alg».proof.Proof.Gen.Kernel.Frame
import proofs.«178397_g781684048050_cont_9to1c4b_217_4_alg».proof.Proof.Gen.KernelIdeal
import proofs.«178397_g781684048050_cont_9to1c4b_217_4_alg».proof.Proof.Gen.KernelIdeal.Skeleton
import proofs.«178397_g781684048050_cont_9to1c4b_217_4_alg».proof.Proof.Gen.KernelIdeal.Launch
import proofs.«178397_g781684048050_cont_9to1c4b_217_4_alg».proof.Proof.Gen.KernelIdeal.Points
import proofs.«178397_g781684048050_cont_9to1c4b_217_4_alg».proof.Proof.Gen.KernelIdeal.Frame
import proofs.«178397_g781684048050_cont_9to1c4b_217_4_alg».proof.Proof.Gen.ReferenceIdeal
import proofs.«178397_g781684048050_cont_9to1c4b_217_4_alg».proof.Proof.Gen.Pre_finite_inputs
import proofs.«178397_g781684048050_cont_9to1c4b_217_4_alg».proof.Proof.Gen.KernelIdeal.Value
import proofs.«178397_g781684048050_cont_9to1c4b_217_4_alg».proof.Proof.Gen.ReferenceIdeal.Run
import proofs.«178397_g781684048050_cont_9to1c4b_217_4_alg».proof.Proof.Gen.ReferenceIdeal.Read
import proofs.«178397_g781684048050_cont_9to1c4b_217_4_alg».proof.Proof.Array
import proofs.«178397_g781684048050_cont_9to1c4b_217_4_alg».proof.Proof.RefLayer
import proofs.«178397_g781684048050_cont_9to1c4b_217_4_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with the layer of the four arguments: the kernel with the aggregation done
    first, the reference with the transformation done first — one array when the entries are real. -/
theorem algebraic : Cert.algebraic_KernelIdeal_ReferenceIdeal := by
  intro m ρ m' ρ' hpre hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  refine ((Cert.ReferenceIdeal.Read.val_main_v7_eq (F := Ideal) _ _ _ _).trans
    (Cert.ReferenceIdeal.RefValue.reference_is_layer _ _ _ _)).trans ?_
  obtain ⟨hx, hadj, hW, -⟩ := Cert.Pre_finite_inputs.Finite.reals_of_pre _ _ _ _ (hpre c)
  funext i
  exact (Cert.GcnSpec.entryAggFirst_eq _ _ _ _ hx hadj hW (i 0) (i 1)).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
